-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000 : Shape := ⟨1, ![800000]⟩
abbrev S3x64x64 : Shape := ⟨3, ![3, 64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S50000x64 .f32) (main_arg1 : IVec S2x800000 32) (main_arg2 : FVec F S800000 .f32) (main_arg3 : FVec F S3x64x64 .f32) (main_arg4 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S3x64x64 .f32 := Host.absf main_arg3
  let main_cst_2 : FVec F S_ .f32 := constant S_ .f32 0x7F800000#32
  let main_v10 : FVec F S3x64x64 .f32 := broadcastInDim S3x64x64 ![] bcast_S_S3x64x64 main_cst_2
  let main_v11 : IVec S3x64x64 1 := cmpf .olt main_v9 main_v10
  let main_c_3 : IVec S_ 1 := constantI S_ 1 1#1
  let main_v12 : IVec S_ 1 := (fun x v => Host.reduce IntOp.andi x v reducesTo_S3x64x64_S_d0_1_2 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S50000x64 : Shape := ⟨2, ![50000, 64]⟩
abbrev S2x800000 : Shape := ⟨2, ![2, 800000]⟩
abbrev S800000 : Shape := ⟨1, ![800000]⟩
abbrev S3x64x64 : Shape := ⟨3, ![3, 64, 64]⟩
abbrev S64 : Shape := ⟨1, ![64]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S1x64 : Shape := ⟨2, ![1, 64]⟩
abbrev S5000x64 : Shape := ⟨2, ![5000, 64]⟩
abbrev S1x64x64 : Shape := ⟨3, ![1, 64, 64]⟩
abbrev S64x64 : Shape := ⟨2, ![64, 64]⟩

abbrev nBuf : Space → Nat
  | .hbm => 80
  | .vmem => 10
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000, .f32⟩
  | .hbm, ⟨3, _⟩ => ⟨S3x64x64, .f32⟩
  | .hbm, ⟨4, _⟩ => ⟨S64, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S50000, .i1⟩
  | .hbm, ⟨16, _⟩ => ⟨S50000, .f32⟩
  | .hbm, ⟨17, _⟩ => ⟨S_, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000, .f32⟩
  | .hbm, ⟨30, _⟩ => ⟨S800000, .f32⟩
  | .hbm, ⟨31, _⟩ => ⟨S800000, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000, .f32⟩
  | .hbm, ⟨41, _⟩ => ⟨S800000, .f32⟩
  | .hbm, ⟨42, _⟩ => ⟨S800000x1, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x64, .f32⟩
  | .hbm, ⟨52, _⟩ => ⟨S800000x64, .f32⟩
  | .hbm, ⟨53, _⟩ => ⟨S800000x64, .f32⟩
  | .hbm, ⟨54, _⟩ => ⟨S_, .f32⟩
  | .hbm, ⟨55, _⟩ => ⟨S50000x64, .f32⟩
  | .hbm, ⟨56, _⟩ => ⟨S800000x1, .i32⟩
  | .hbm, ⟨57, _⟩ => ⟨S50000x64, .f32⟩
  | .hbm, ⟨58, _⟩ => ⟨S800000x1, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x64, .f32⟩
  | .hbm, ⟨68, _⟩ => ⟨S800000x64, .f32⟩
  | .hbm, ⟨69, _⟩ => ⟨S800000x64, .f32⟩
  | .hbm, ⟨70, _⟩ => ⟨S_, .f32⟩
  | .hbm, ⟨71, _⟩ => ⟨S50000x64, .f32⟩
  | .hbm, ⟨72, _⟩ => ⟨S800000x1, .i32⟩
  | .hbm, ⟨73, _⟩ => ⟨S50000x64, .f32⟩
  | .hbm, ⟨74, _⟩ => ⟨S_, .f32⟩
  | .hbm, ⟨75, _⟩ => ⟨S50000x64, .f32⟩
  | .hbm, ⟨76, _⟩ => ⟨S50000x64, .f32⟩
  | .hbm, ⟨77, _⟩ => ⟨S50000x64, .f32⟩
  | .hbm, ⟨78, _⟩ => ⟨S1x64, .f32⟩
  | .hbm, ⟨79, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S3x64x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_8 : Ref sig .tc := ⟨.hbm, 59, rfl⟩
abbrev main_v42 : Ref sig .tc := ⟨.hbm, 60, rfl⟩
abbrev main_v43 : Ref sig .tc := ⟨.hbm, 61, rfl⟩
abbrev main_c_9 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_10 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_11 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S3x64x64_S1x64x64_0_0_0 : ∀ a, (![0, 0, 0] : Fin 3 → Nat) a + S1x64x64.size a ≤ S3x64x64.size a
  h_S1x64x64 : 0 < S1x64x64.numel
  shapeCasts_S1x64x64_S64x64 : S1x64x64.ShapeCasts S64x64
  inb_S3x64x64_S1x64x64_1_0_0 : ∀ a, (![1, 0, 0] : Fin 3 → Nat) a + S1x64x64.size a ≤ S3x64x64.size a
  inb_S3x64x64_S1x64x64_2_0_0 : ∀ a, (![2, 0, 0] : Fin 3 → Nat) a + S1x64x64.size a ≤ S3x64x64.size a
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x64x64.size a ≤ S3x64x64.size a
  hwx0_3 : ∀ i : grid0.Coords, EltTy.bits .f32 = 32 ∨ (Rect.block (s := S3x64x64) S3x64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v40) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v56) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3x64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v57) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v58) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000 : Shape := ⟨1, ![800000]⟩
abbrev S3x64x64 : Shape := ⟨3, ![3, 64, 64]⟩
abbrev S64 : Shape := ⟨1, ![64]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S1x64x64 : Shape := ⟨3, ![1, 64, 64]⟩
abbrev S64x64 : Shape := ⟨2, ![64, 64]⟩
abbrev S800000x64 : Shape := ⟨2, ![800000, 64]⟩
abbrev S1x64 : Shape := ⟨2, ![1, 64]⟩

abbrev nBuf : Space → Nat
  | .hbm => 95
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000, .f32⟩
  | .hbm, ⟨3, _⟩ => ⟨S3x64x64, .f32⟩
  | .hbm, ⟨4, _⟩ => ⟨S64, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S50000, .i1⟩
  | .hbm, ⟨16, _⟩ => ⟨S50000, .f32⟩
  | .hbm, ⟨17, _⟩ => ⟨S_, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000, .f32⟩
  | .hbm, ⟨30, _⟩ => ⟨S800000, .f32⟩
  | .hbm, ⟨31, _⟩ => ⟨S800000, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000, .f32⟩
  | .hbm, ⟨41, _⟩ => ⟨S800000, .f32⟩
  | .hbm, ⟨42, _⟩ => ⟨S1x64x64, .f32⟩
  | .hbm, ⟨43, _⟩ => ⟨S64x64, .f32⟩
  | .hbm, ⟨44, _⟩ => ⟨S50000x64, .f32⟩
  | .hbm, ⟨45, _⟩ => ⟨S800000x1, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x64, .f32⟩
  | .hbm, ⟨55, _⟩ => ⟨S800000x64, .f32⟩
  | .hbm, ⟨56, _⟩ => ⟨S800000x64, .f32⟩
  | .hbm, ⟨57, _⟩ => ⟨S_, .f32⟩
  | .hbm, ⟨58, _⟩ => ⟨S50000x64, .f32⟩
  | .hbm, ⟨59, _⟩ => ⟨S800000x1, .i32⟩
  | .hbm, ⟨60, _⟩ => ⟨S50000x64, .f32⟩
  | .hbm, ⟨61, _⟩ => ⟨S1x64x64, .f32⟩
  | .hbm, ⟨62, _⟩ => ⟨S64x64, .f32⟩
  | .hbm, ⟨63, _⟩ => ⟨S50000x64, .f32⟩
  | .hbm, ⟨64, _⟩ => ⟨S50000x64, .f32⟩
  | .hbm, ⟨65, _⟩ => ⟨S800000x1, .f32⟩
  | .hbm, ⟨66, _⟩ => ⟨S_, .i32⟩
  | .hbm, ⟨67, _⟩ => ⟨S800000, .i32⟩
  | .hbm, ⟨68, _⟩ => ⟨S800000, .i1⟩
  | .hbm, ⟨69, _⟩ => ⟨S_, .i32⟩
  | .hbm, ⟨70, _⟩ => ⟨S800000, .i32⟩
  | .hbm, ⟨71, _⟩ => ⟨S800000, .i32⟩
  | .hbm, ⟨72, _⟩ => ⟨S800000, .i32⟩
  | .hbm, ⟨73, _⟩ => ⟨S800000x1, .i32⟩
  | .hbm, ⟨74, _⟩ => ⟨S800000x64, .f32⟩
  | .hbm, ⟨75, _⟩ => ⟨S800000x64, .f32⟩
  | .hbm, ⟨76, _⟩ => ⟨S800000x64, .f32⟩
  | .hbm, ⟨77, _⟩ => ⟨S_, .f32⟩
  | .hbm, ⟨78, _⟩ => ⟨S50000x64, .f32⟩
  | .hbm, ⟨79, _⟩ => ⟨S800000x1, .i32⟩
  | .hbm, ⟨80, _⟩ => ⟨S50000x64, .f32⟩
  | .hbm, ⟨81, _⟩ => ⟨S_, .f32⟩
  | .hbm, ⟨82, _⟩ => ⟨S50000x64, .f32⟩
  | .hbm, ⟨83, _⟩ => ⟨S50000x64, .f32⟩
  | .hbm, ⟨84, _⟩ => ⟨S50000x64, .f32⟩
  | .hbm, ⟨85, _⟩ => ⟨S1x64x64, .f32⟩
  | .hbm, ⟨86, _⟩ => ⟨S64x64, .f32⟩
  | .hbm, ⟨87, _⟩ => ⟨S50000x64, .f32⟩
  | .hbm, ⟨88, _⟩ => ⟨S50000x64, .f32⟩
  | .hbm, ⟨89, _⟩ => ⟨S1x64, .f32⟩
  | .hbm, ⟨90, _⟩ => ⟨S50000x64, .f32⟩
  | .hbm, ⟨91, _⟩ => ⟨S50000x64, .f32⟩
  | .hbm, ⟨92, _⟩ => ⟨S_, .f32⟩
  | .hbm, ⟨93, _⟩ => ⟨S50000x64, .f32⟩
  | .hbm, ⟨94, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_5 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_c_8 : Ref sig .tc := ⟨.hbm, 66, rfl⟩
abbrev main_v49 : Ref sig .tc := ⟨.hbm, 67, rfl⟩
abbrev main_v50 : Ref sig .tc := ⟨.hbm, 68, rfl⟩
abbrev main_c_9 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_10 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_11 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_call1_cst : Ref sig .tc := ⟨.hbm, 92, rfl⟩
abbrev main_call1_v0 : Ref sig .tc := ⟨.hbm, 93, rfl⟩
abbrev main_v71 : Ref sig .tc := ⟨.hbm, 94, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  slices_S3x64x64_S1x64x64_0_0_0 : S3x64x64.Slices ![0, 0, 0] S1x64x64
  shapeCasts_S1x64x64_S64x64 : S1x64x64.ShapeCasts S64x64
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  slices_S3x64x64_S1x64x64_1_0_0 : S3x64x64.Slices ![1, 0, 0] S1x64x64
  slices_S3x64x64_S1x64x64_2_0_0 : S3x64x64.Slices ![2, 0, 0] S1x64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.DensePayload.lean ====
/-
  The kernel body's arithmetic, read at one element of its 5000 × 64 output block.

  The body casts three row blocks t0, t1, t2 (5000 × 64) and the three 64 × 64 weight matrices to bf16 — the
  identity on the extended reals —, multiplies each block by its matrix into a zero accumulator, adds the three
  products left to right, adds the bias row and clamps at zero.  So at row p and column q the stored value is

      max (((Σₖ t0[p,k]·w0[k,q]) + (Σₖ t1[p,k]·w1[k,q])) + (Σₖ t2[p,k]·w2[k,q]) + b[q]) 0

  with the sums over the 64 input channels.  Nothing here needs finiteness: no term is moved across a sum.
-/
import proofs.«139565_j26611617366463_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.ChebDense

open Idealize.ShloMosaic Idealize.ShloMosaic.ValueIdx Cert.KernelIdeal Cert.KernelIdeal.Gen

/-! The row-by-column product's operand indices, axis by axis: at output (p, q) and channel k the left operand is read
    at (p, k) and the right at (k, q). -/

theorem lhs_rowCol_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_rowCol_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_rowCol_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_rowCol_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A block times a matrix into the zero accumulator, at row `p` and column `q`: the sum over the 64 channels. -/
theorem blockTimes_apply (l : FVec Ideal S5000x64 .bf16) (r : FVec Ideal S64x64 .bf16) (p : Fin 5000) (q : Fin 64) :
    matmul dot_S5000x64_S64x64_S5000x64_1_0_0_1_n_n none l r (constant S5000x64 .f32 0x00000000#32) (ix2 p q)
      = ∑ k : Fin 64, l (ix2 p k) * r (ix2 k q) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs_rowCol_0 _ _
    | ⟨1, _⟩ => exact (lhs_rowCol_1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs_rowCol_0 _ _).trans hk
    | ⟨1, _⟩ => exact rhs_rowCol_1 _ _)
  rw [el, er]

/-- One loaded 1 × 64 × 64 slab of the weights, re-laid as a 64 × 64 matrix, at `(k, q)`. -/
theorem slab_apply (w : Vec Ideal S1x64x64 .f32) (k q : Fin 64) :
    shapeCast S64x64 w shapeCasts_S1x64x64_S64x64 (ix2 k q) = w (ix3 0 k q) := by
  refine shapeCast_apply w shapeCasts_S1x64x64_S64x64 (ix2 k q) (ix3 0 k q) ?_
  rewrite [Shape.rowMajor_val_three, Shape.rowMajor_val_two]
  show (0 * 64 + k.val) * 64 + q.val = k.val * 64 + q.val
  omega

/-- The bias row spread over the block's 5000 rows, at `(p, q)`. -/
theorem biasRows_apply (b : Vec Ideal S1x64 .f32) (p : Fin 5000) (q : Fin 64) :
    broadcastTo S5000x64 (shapeCast S1x64 b shapeCasts_S1x64_S1x64) broadcasts_S1x64_S5000x64 (ix2 p q) = b (ix2 0 q) := by
  rw [shapeCast_self]
  refine broadcastTo_apply b broadcasts_S1x64_S5000x64 (ix2 p q) (ix2 0 q) (fun a => ?_)
  match a with
  | ⟨0, _⟩ => show 0 = if (1 : Nat) = 1 then 0 else _; rw [if_pos rfl]
  | ⟨1, _⟩ => show q.val = if (64 : Nat) = 1 then 0 else q.val; rw [if_neg (by decide)]

/-- THE BODY'S STORED VALUE at row `p`, column `q` of the block. -/
theorem pay_apply (t0 t1 t2 : Vec Ideal S5000x64 .f32) (w0 w1 w2 : Vec Ideal S1x64x64 .f32) (b : Vec Ideal S1x64 .f32)
    (p : Fin 5000) (q : Fin 64) :
    k0_pay1 (F := Ideal) t0 t1 t2 w0 w1 w2 b (ix2 p q)
      = max ((((∑ k : Fin 64, t0 (ix2 p k) * w0 (ix3 0 k q)) + (∑ k : Fin 64, t1 (ix2 p k) * w1 (ix3 0 k q)))
              + (∑ k : Fin 64, t2 (ix2 p k) * w2 (ix3 0 k q))) + b (ix2 0 q)) 0 := by
  unfold k0_pay1
  rw [maximumf_apply, addf_apply, addf_apply, addf_apply, blockTimes_apply, blockTimes_apply, blockTimes_apply,
    biasRows_apply, broadcast_apply]
  simp only [truncf_apply, shapeCast_self]
  have e0 : ∀ k : Fin 64, shapeCast S64x64 w0 shapeCasts_S1x64x64_S64x64 (ix2 k q) = w0 (ix3 0 k q) := fun k => slab_apply w0 k q
  have e1 : ∀ k : Fin 64, shapeCast S64x64 w1 shapeCasts_S1x64x64_S64x64 (ix2 k q) = w1 (ix3 0 k q) := fun k => slab_apply w1 k q
  have e2 : ∀ k : Fin 64, shapeCast S64x64 w2 shapeCasts_S1x64x64_S64x64 (ix2 k q) = w2 (ix3 0 k q) := fun k => slab_apply w2 k q
  simp only [e0, e1, e2]
  show max _ (Ideal.ofBits .f32 0x00000000#32) = _
  rw [Ideal.ofBits_zero_f32]

end Cert.ChebDense

end
-- ==== Proof.DenseSpec.lean ====
/-
  The dense Chebyshev projection as ONE function of whole arrays.

  Given the three Chebyshev terms T0, T1, T2 (each 50000 × 64), the three 64 × 64 weight matrices W[0], W[1], W[2]
  and the bias b, the layer's output at node r and output channel c is

      max (((Σₖ T0[r,k]·W[0][k,c]) + (Σₖ T1[r,k]·W[1][k,c])) + (Σₖ T2[r,k]·W[2][k,c]) + b[c]) 0,

  the three products added left to right, then the bias, then the clamp at zero — the order in which both programs
  add them, so no rearrangement of extended-real sums is needed anywhere.
-/
import proofs.«139565_j26611617366463_1_alg».proof.KernelIdeal
import Idealize.ShloMosaic.Lib.ValueIdx

noncomputable section

namespace Cert.ChebDense

open Idealize.ShloMosaic Idealize.ShloMosaic.ValueIdx Cert.KernelIdeal

/-- The layer's output from its three terms, the stacked weights and the bias, element by element. -/
def denseOut (T0 T1 T2 : Vec Ideal S50000x64 .f32) (W : Vec Ideal S3x64x64 .f32) (b : Vec Ideal S64 .f32) :
    Vec Ideal S50000x64 .f32 := fun i =>
  max ((((∑ k : Fin 64, T0 (ix2 (n0 := 50000) (i 0) k) * W (ix3 (n0 := 3) (n1 := 64) 0 k (i 1)))
          + (∑ k : Fin 64, T1 (ix2 (n0 := 50000) (i 0) k) * W (ix3 (n0 := 3) (n1 := 64) 1 k (i 1))))
          + (∑ k : Fin 64, T2 (ix2 (n0 := 50000) (i 0) k) * W (ix3 (n0 := 3) (n1 := 64) 2 k (i 1))))
        + b (ix1 (n := 64) (i 1))) 0

theorem denseOut_apply (T0 T1 T2 : Vec Ideal S50000x64 .f32) (W : Vec Ideal S3x64x64 .f32) (b : Vec Ideal S64 .f32)
    (r : Fin 50000) (c : Fin 64) :
    denseOut T0 T1 T2 W b (ix2 r c)
      = max ((((∑ k : Fin 64, T0 (ix2 r k) * W (ix3 0 k c)) + (∑ k : Fin 64, T1 (ix2 r k) * W (ix3 1 k c)))
              + (∑ k : Fin 64, T2 (ix2 r k) * W (ix3 2 k c))) + b (ix1 c)) 0 := rfl

end Cert.ChebDense

end
-- ==== Proof.KernelBlocks.lean ====
/-
  From blocks to the array: what the kernel leaves in its output.

  The grid has ten points; point t stages rows 5000·t … 5000·t + 4999 of each of the three terms, the whole stacked
  weights and the whole bias row, and writes back rows 5000·t … 5000·t + 4999 of the output.  Row p of block t is row
  5000·t + p of the array, the columns are not cut, so what point t writes back is block t of the dense projection
  of the WHOLE arrays; the ten blocks tile the 50000 rows (row r lies in block r / 5000), hence the output array
  ends as that projection.  The arrays are named here as the region finds them, window by window.
-/
import proofs.«139565_j26611617366463_1_alg».proof.Proof.Gen.KernelIdeal.Value
import proofs.«139565_j26611617366463_1_alg».proof.Proof.DensePayload
import proofs.«139565_j26611617366463_1_alg».proof.Proof.DenseSpec

set_option maxRecDepth 16384

noncomputable section

namespace Cert.ChebDense

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem zeroOffsets : (![0, 0] : Fin 2 → Nat) = fun _ => 0 := funext fun a => by fin_cases a <;> rfl

/-- The index maps, decided over the ten points: the three terms' windows and the output's sit at row block `t`,
    column block 0; the weights' and the bias's windows never move. -/
theorem blockIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of block `t` as a row of the array. -/
def arrayRow (t : Fin cfg0.N) (p : Fin 5000) : Fin 50000 :=
  ⟨t.val * 5000 + p.val, by have ht : t.val < 10 := lt_of_lt_of_eq t.isLt N_0
                            have hp := p.isLt; omega⟩

/-! ## Reading an array through a window's block (any array of the window's shape) -/

/-- Window 0's block `t` holds rows 5000·t … of its array. -/
theorem rows0_view (A : Vec Ideal S50000x64 .f32) (t : Fin cfg0.N) (p : Fin 5000) (k : Fin 64) :
    ((cfg0.win 0).blk t).view.read (Elt Ideal) A (ix2 p k) = A (ix2 (arrayRow t p) k) := by
  obtain ⟨e0, e1, -⟩ := blockIndex t
  show A (((cfg0.win 0).blk t).view.emb (ix2 p k)) = A (ix2 (arrayRow t p) k)
  refine congrArg A (funext fun a => Fin.ext ?_)
  match a with
  | ⟨0, _⟩ => show win0_0.index t (0 : Fin 2) * 5000 + 1 * p.val = t.val * 5000 + p.val; omega
  | ⟨1, _⟩ => show win0_0.index t (1 : Fin 2) * 64 + 1 * k.val = k.val; omega

/-- So does window 1's. -/
theorem rows1_view (A : Vec Ideal S50000x64 .f32) (t : Fin cfg0.N) (p : Fin 5000) (k : Fin 64) :
    ((cfg0.win 1).blk t).view.read (Elt Ideal) A (ix2 p k) = A (ix2 (arrayRow t p) k) := by
  obtain ⟨-, -, e0, e1, -⟩ := blockIndex t
  show A (((cfg0.win 1).blk t).view.emb (ix2 p k)) = A (ix2 (arrayRow t p) k)
  refine congrArg A (funext fun a => Fin.ext ?_)
  match a with
  | ⟨0, _⟩ => show win0_1.index t (0 : Fin 2) * 5000 + 1 * p.val = t.val * 5000 + p.val; omega
  | ⟨1, _⟩ => show win0_1.index t (1 : Fin 2) * 64 + 1 * k.val = k.val; omega

/-- And window 2's. -/
theorem rows2_view (A : Vec Ideal S50000x64 .f32) (t : Fin cfg0.N) (p : Fin 5000) (k : Fin 64) :
    ((cfg0.win 2).blk t).view.read (Elt Ideal) A (ix2 p k) = A (ix2 (arrayRow t p) k) := by
  obtain ⟨-, -, -, -, e0, e1, -⟩ := blockIndex t
  show A (((cfg0.win 2).blk t).view.emb (ix2 p k)) = A (ix2 (arrayRow t p) k)
  refine congrArg A (funext fun a => Fin.ext ?_)
  match a with
  | ⟨0, _⟩ => show win0_2.index t (0 : Fin 2) * 5000 + 1 * p.val = t.val * 5000 + p.val; omega
  | ⟨1, _⟩ => show win0_2.index t (1 : Fin 2) * 64 + 1 * k.val = k.val; omega

/-- The body's load of slab 0 of the staged weights, at (0, k, q): the stacked weights at (0, k, q). -/
theorem slab0_view (Wt : Vec Ideal S3x64x64 .f32) (t : Fin cfg0.N) (k q : Fin 64) :
    View.ld (((cfg0.win 3).blk t).view.read (Elt Ideal) Wt) r0_1 (ix3 0 k q) = Wt (ix3 0 k q) := by
  obtain ⟨-, -, -, -, -, -, e0, e1, e2, -⟩ := blockIndex t
  show Wt (((cfg0.win 3).blk t).view.emb (r0_1.emb (ix3 0 k q))) = Wt (ix3 0 k q)
  refine congrArg Wt (funext fun a => Fin.ext ?_)
  match a with
  | ⟨0, _⟩ => show win0_3.index t (0 : Fin 3) * 3 + 1 * (0 + 1 * 0) = 0; omega
  | ⟨1, _⟩ => show win0_3.index t (1 : Fin 3) * 64 + 1 * (0 + 1 * k.val) = k.val; omega
  | ⟨2, _⟩ => show win0_3.index t (2 : Fin 3) * 64 + 1 * (0 + 1 * q.val) = q.val; omega

/-- Slab 1. -/
theorem slab1_view (Wt : Vec Ideal S3x64x64 .f32) (t : Fin cfg0.N) (k q : Fin 64) :
    View.ld (((cfg0.win 3).blk t).view.read (Elt Ideal) Wt) r0_2 (ix3 0 k q) = Wt (ix3 1 k q) := by
  obtain ⟨-, -, -, -, -, -, e0, e1, e2, -⟩ := blockIndex t
  show Wt (((cfg0.win 3).blk t).view.emb (r0_2.emb (ix3 0 k q))) = Wt (ix3 1 k q)
  refine congrArg Wt (funext fun a => Fin.ext ?_)
  match a with
  | ⟨0, _⟩ => show win0_3.index t (0 : Fin 3) * 3 + 1 * (1 + 1 * 0) = 1; omega
  | ⟨1, _⟩ => show win0_3.index t (1 : Fin 3) * 64 + 1 * (0 + 1 * k.val) = k.val; omega
  | ⟨2, _⟩ => show win0_3.index t (2 : Fin 3) * 64 + 1 * (0 + 1 * q.val) = q.val; omega

/-- Slab 2. -/
theorem slab2_view (Wt : Vec Ideal S3x64x64 .f32) (t : Fin cfg0.N) (k q : Fin 64) :
    View.ld (((cfg0.win 3).blk t).view.read (Elt Ideal) Wt) r0_3 (ix3 0 k q) = Wt (ix3 2 k q) := by
  obtain ⟨-, -, -, -, -, -, e0, e1, e2, -⟩ := blockIndex t
  show Wt (((cfg0.win 3).blk t).view.emb (r0_3.emb (ix3 0 k q))) = Wt (ix3 2 k q)
  refine congrArg Wt (funext fun a => Fin.ext ?_)
  match a with
  | ⟨0, _⟩ => show win0_3.index t (0 : Fin 3) * 3 + 1 * (2 + 1 * 0) = 2; omega
  | ⟨1, _⟩ => show win0_3.index t (1 : Fin 3) * 64 + 1 * (0 + 1 * k.val) = k.val; omega
  | ⟨2, _⟩ => show win0_3.index t (2 : Fin 3) * 64 + 1 * (0 + 1 * q.val) = q.val; omega

/-- Window 4 stages the whole bias row. -/
theorem bias_view (B : Vec Ideal S1x64 .f32) (t : Fin cfg0.N) (q : Fin 64) :
    ((cfg0.win 4).blk t).view.read (Elt Ideal) B (ix2 0 q) = B (ix2 0 q) := by
  obtain ⟨-, -, -, -, -, -, -, -, -, e0, e1, -⟩ := blockIndex t
  show B (((cfg0.win 4).blk t).view.emb (ix2 0 q)) = B (ix2 0 q)
  refine congrArg B (funext fun a => Fin.ext ?_)
  match a with
  | ⟨0, _⟩ => show win0_4.index t (0 : Fin 2) * 1 + 1 * 0 = 0; omega
  | ⟨1, _⟩ => show win0_4.index t (1 : Fin 2) * 64 + 1 * q.val = q.val; omega

/-- Element (p, q) of the output's block `t` is element (5000·t + p, q) of the array. -/
theorem out_block (t : Fin cfg0.N) (p : Fin 5000) (q : Fin 64) :
    ((cfg0.win 5).blk t).view.emb (ix2 p q) = ix2 (arrayRow t p) q := by
  obtain ⟨-, -, -, -, -, -, -, -, -, -, -, e0, e1⟩ := blockIndex t
  refine funext fun a => Fin.ext ?_
  match a with
  | ⟨0, _⟩ => show win0_5.index t (0 : Fin 2) * 5000 + 1 * p.val = t.val * 5000 + p.val; omega
  | ⟨1, _⟩ => show win0_5.index t (1 : Fin 2) * 64 + 1 * q.val = q.val; omega

/-! ## The five staged arrays as the region finds them, and their blocks -/

/-- T0, T1, T2 (windows 0, 1, 2), the stacked weights (window 3) and the bias row (window 4) at region entry. -/
abbrev found0 (c : Dev nD) : Vec Ideal S50000x64 .f32 := V m c (Pipeline.arrRef spec0 0)
abbrev found1 (c : Dev nD) : Vec Ideal S50000x64 .f32 := V m c (Pipeline.arrRef spec0 1)
abbrev found2 (c : Dev nD) : Vec Ideal S50000x64 .f32 := V m c (Pipeline.arrRef spec0 2)
abbrev found3 (c : Dev nD) : Vec Ideal S3x64x64 .f32 := V m c (Pipeline.arrRef spec0 3)
abbrev found4 (c : Dev nD) : Vec Ideal S1x64 .f32 := V m c (Pipeline.arrRef spec0 4)

theorem term0_block (c : Dev nD) (t : Fin cfg0.N) (p : Fin 5000) (k : Fin 64) :
    iblk m c 0 t (ix2 p k) = found0 m c (ix2 (arrayRow t p) k) := by
  unfold iblk; exact rows0_view _ t p k
theorem term1_block (c : Dev nD) (t : Fin cfg0.N) (p : Fin 5000) (k : Fin 64) :
    iblk m c 1 t (ix2 p k) = found1 m c (ix2 (arrayRow t p) k) := by
  unfold iblk; exact rows1_view _ t p k
theorem term2_block (c : Dev nD) (t : Fin cfg0.N) (p : Fin 5000) (k : Fin 64) :
    iblk m c 2 t (ix2 p k) = found2 m c (ix2 (arrayRow t p) k) := by
  unfold iblk; exact rows2_view _ t p k
theorem slab0_block (c : Dev nD) (t : Fin cfg0.N) (k q : Fin 64) :
    View.ld (iblk m c 3 t) r0_1 (ix3 0 k q) = found3 m c (ix3 0 k q) := by
  unfold iblk; exact slab0_view _ t k q
theorem slab1_block (c : Dev nD) (t : Fin cfg0.N) (k q : Fin 64) :
    View.ld (iblk m c 3 t) r0_2 (ix3 0 k q) = found3 m c (ix3 1 k q) := by
  unfold iblk; exact slab1_view _ t k q
theorem slab2_block (c : Dev nD) (t : Fin cfg0.N) (k q : Fin 64) :
    View.ld (iblk m c 3 t) r0_3 (ix3 0 k q) = found3 m c (ix3 2 k q) := by
  unfold iblk; exact slab2_view _ t k q
theorem bias_block (c : Dev nD) (t : Fin cfg0.N) (q : Fin 64) :
    iblk m c 4 t (ix2 0 q) = found4 m c (ix2 0 q) := by
  unfold iblk; exact bias_view _ t q

/-- WHAT POINT `t` WRITES BACK is block `t` of the dense projection of the arrays as the region finds them; `b` is
    the bias the staged 1 × 64 row holds. -/
theorem flushed_eq (c : Dev nD) (t : Fin cfg0.N) (b : Vec Ideal S64 .f32)
    (hb : ∀ q : Fin 64, found4 m c (ix2 0 q) = b (ix1 q)) :
    (dats m 0 c).flushed 5 t = ((cfg0.win 5).blk t).view.read (Elt Ideal)
      (denseOut (found0 m c) (found1 m c) (found2 m c) (found3 m c) b) := by
  rw [Cert.KernelIdeal.Value.flushed5]
  unfold out0_5
  rw [View.canon_unit_zero zeroOffsets]
  simp only [View.ld_unit_zero (S := S5000x64) zeroOffsets, View.ld_unit_zero (S := S1x64) zeroOffsets]
  funext y
  obtain ⟨p, q, rfl⟩ : ∃ (p : Fin 5000) (q : Fin 64), y = ix2 p q := ⟨y 0, y 1, eq_ix2 y⟩
  show k0_pay1 (F := Ideal) (iblk m c 0 t) (iblk m c 1 t) (iblk m c 2 t) (View.ld (iblk m c 3 t) r0_1) (View.ld (iblk m c 3 t) r0_2)
      (View.ld (iblk m c 3 t) r0_3) (iblk m c 4 t) (ix2 p q)
    = denseOut (found0 m c) (found1 m c) (found2 m c) (found3 m c) b (((cfg0.win 5).blk t).view.emb (ix2 p q))
  rw [out_block, denseOut_apply]
  refine (pay_apply (iblk m c 0 t) (iblk m c 1 t) (iblk m c 2 t) (View.ld (iblk m c 3 t) r0_1) (View.ld (iblk m c 3 t) r0_2)
      (View.ld (iblk m c 3 t) r0_3) (iblk m c 4 t) p q).trans ?_
  simp only [term0_block, term1_block, term2_block, slab0_block, slab1_block, slab2_block, bias_block, hb]

/-- An array index lies in point `t`'s output block iff each coordinate lies in the block's range on its axis. -/
theorem mem_outBlock (t : Fin cfg0.N) (i : S50000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v58).slice (win0_5.rect t)).set ↔ _
  rw [View.set_slice_whole, Rect.mem_set_unit]
  exact Iff.rfl

/-- The ten output blocks tile the array: row r lies in block r / 5000. -/
theorem outBlocks_cover (i : S50000x64.Idx) :
    ∃ t : Fin cfg0.N, (cfg0.win 5).flush t = true ∧ i ∈ ((cfg0.win 5).blk t).view.set := by
  have hr : (i 0).val < 50000 := (i 0).isLt
  have hc : (i 1).val < 64 := (i 1).isLt
  let t : Fin cfg0.N := ⟨(i 0).val / 5000, by rw [show cfg0.N = grid0.N from rfl, N_0]; omega⟩
  obtain ⟨-, -, -, -, -, -, -, -, -, -, -, e0, e1⟩ := blockIndex t
  have ht : t.val = (i 0).val / 5000 := rfl
  refine ⟨t, flush0_5 t, ?_⟩
  rw [mem_outBlock]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-- THE OUTPUT ARRAY after the run: the dense projection of the arrays as the region finds them. -/
theorem final_eq (c : Dev nD) (b : Vec Ideal S64 .f32) (hb : ∀ q : Fin 64, found4 m c (ix2 0 q) = b (ix1 q)) :
    (dats m 0 c).arrAt 5 cfg0.N = denseOut (found0 m c) (found1 m c) (found2 m c) (found3 m c) b :=
  (dats m 0 c).arrAt_eq_of_cover 5 (denseOut (found0 m c) (found1 m c) (found2 m c) (found3 m c) b)
    (fun t _ => flushed_eq m c t b hb) outBlocks_cover

end Cert.ChebDense

end
-- ==== Proof.HostPrefix.lean ====
/-
  The sparse part is the SAME computation in both programs.

  Before it launches the dense kernel, the kernel's program computes on the host, from x, the edge list and the edge
  weights: the degrees (a scatter-add of the weights over the rows), their inverse square roots where positive, the
  normalised weights w = −dis[row]·weight·dis[col], then T1 = scatter-add of w·x[col] over the rows and
  T2 = 2·scatter-add of w·T1[col] over the rows − x.  The reference computes T1 and T2 by the very same operations
  in the same order, with the same constants (0, 50000, 2).  So the arrays the kernel's region finds are, as terms,
  the reference's own stages for T1 and T2; nothing of the gathers and scatter-adds is ever opened.  The bias reaches
  the region reshaped to one row of 64.
-/
import proofs.«139565_j26611617366463_1_alg».proof.Proof.Gen.KernelIdeal.Frame
import proofs.«139565_j26611617366463_1_alg».proof.Proof.Gen.ReferenceIdeal.Read
import Idealize.ShloMosaic.Lib.StableHlo.Run
import Idealize.ShloMosaic.Lib.Pipeline.Value
import Idealize.ShloMosaic.Lib.ValueIdx

set_option maxRecDepth 16384

noncomputable section

namespace Cert.ChebDense

open Idealize.ShloMosaic Idealize.ShloMosaic.TcCoe Idealize.SL.Sem Idealize.ShloMosaic.StableHlo
open Idealize.ShloMosaic.ValueIdx
open Cert.KernelIdeal Cert.KernelIdeal.Gen

variable {F : FTy → Type} [FloatOps F]
variable (m : (ℓ : Loc nD τ sig) → Buf (Elt F) ℓ)

set_option maxHeartbeats 40000000 in
/-- The region finds T1 where the reference has its stage for T1 (the first propagation). -/
theorem term1_found (c : Dev nD) :
    (V m c main_v40 : S50000x64.Idx → Elt F .f32)
      = Cert.ReferenceIdeal.Read.val_main_v43 (F := F) (m ((c : Thread nD τ).loc main_arg0)) (m ((c : Thread nD τ).loc main_arg1)) (m ((c : Thread nD τ).loc main_arg2)) := by
  dsimp only [V]
  simp only [hostOps0, hostOps0_1, hostOps0_2, List.flatten_cons, List.flatten_nil, List.append_nil, List.cons_append, List.nil_append]
  after_results_simp
  rfl

set_option maxHeartbeats 40000000 in
/-- The region finds T2 where the reference has its stage for T2 (the second propagation, doubled, minus x). -/
theorem term2_found (c : Dev nD) :
    (V m c main_v56 : S50000x64.Idx → Elt F .f32)
      = Cert.ReferenceIdeal.Read.val_main_v63 (F := F) (m ((c : Thread nD τ).loc main_arg0)) (m ((c : Thread nD τ).loc main_arg1)) (m ((c : Thread nD τ).loc main_arg2)) := by
  dsimp only [V]
  simp only [hostOps0, hostOps0_1, hostOps0_2, List.flatten_cons, List.flatten_nil, List.append_nil, List.cons_append, List.nil_append]
  after_results_simp
  rfl

set_option maxHeartbeats 40000000 in
/-- The region finds the bias as one row of 64. -/
theorem bias_found (c : Dev nD) :
    (V m c main_v57 : S1x64.Idx → Elt F .f32) = shapeCast S1x64 (m ((c : Thread nD τ).loc main_arg4)) shapeCasts_S64_S1x64 := by
  dsimp only [V]
  simp only [hostOps0, hostOps0_1, hostOps0_2, List.flatten_cons, List.flatten_nil, List.append_nil, List.cons_append, List.nil_append]
  after_results_simp
  rfl

/-- Its element (0, q) is b[q]. -/
theorem bias_found_apply (c : Dev nD) (q : Fin 64) :
    (V m c main_v57 : S1x64.Idx → Elt F .f32) (ix2 0 q) = m ((c : Thread nD τ).loc main_arg4) (ix1 q) := by
  rw [bias_found]
  refine shapeCast_apply (m ((c : Thread nD τ).loc main_arg4)) shapeCasts_S64_S1x64 (ix2 0 q) (ix1 q) ?_
  show (S64.rowMajor (ix1 q)).val = (S1x64.rowMajor (ix2 0 q)).val
  rewrite [Shape.rowMajor_val_one, Shape.rowMajor_val_two]
  show q.val = 0 * 64 + q.val
  omega

end Cert.ChebDense

end
-- ==== Proof.KernelRun.lean ====
/-
  The kernel's run, read: its result array is the dense Chebyshev projection of x, of the reference's own stages for
  T1 and T2, of the stacked weights and of the bias — every array named by the launch memory.
-/
import proofs.«139565_j26611617366463_1_alg».proof.Proof.KernelBlocks
import proofs.«139565_j26611617366463_1_alg».proof.Proof.HostPrefix

noncomputable section

namespace Cert.ChebDense

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The region-entry contents of a buffer depend on the buffer only. -/
theorem found_congr (c : Dev nD) {r r' : Ref sig .tc} (h : r = r') : HEq (V m c r) (V m c r') := by
  subst h; rfl

/-- Each window's array is the buffer its operand names. -/
theorem found0_eq (c : Dev nD) : found0 m c = m ((c : Thread nD τ).loc main_arg0) :=
  (eq_of_heq (found_congr m c (r := Pipeline.arrRef spec0 0) (r' := main_arg0) rfl)).trans (V_main_arg0 m c)
theorem found1_eq (c : Dev nD) : found1 m c
    = Cert.ReferenceIdeal.Read.val_main_v43 (F := Ideal) (m ((c : Thread nD τ).loc main_arg0)) (m ((c : Thread nD τ).loc main_arg1)) (m ((c : Thread nD τ).loc main_arg2)) :=
  (eq_of_heq (found_congr m c (r := Pipeline.arrRef spec0 1) (r' := main_v40) rfl)).trans (term1_found m c)
theorem found2_eq (c : Dev nD) : found2 m c
    = Cert.ReferenceIdeal.Read.val_main_v63 (F := Ideal) (m ((c : Thread nD τ).loc main_arg0)) (m ((c : Thread nD τ).loc main_arg1)) (m ((c : Thread nD τ).loc main_arg2)) :=
  (eq_of_heq (found_congr m c (r := Pipeline.arrRef spec0 2) (r' := main_v56) rfl)).trans (term2_found m c)
theorem found3_eq (c : Dev nD) : found3 m c = m ((c : Thread nD τ).loc main_arg3) :=
  (eq_of_heq (found_congr m c (r := Pipeline.arrRef spec0 3) (r' := main_arg3) rfl)).trans (V_main_arg3 m c)
theorem found4_apply (c : Dev nD) (q : Fin 64) : found4 m c (ix2 0 q) = m ((c : Thread nD τ).loc main_arg4) (ix1 q) :=
  (congrFun (eq_of_heq (found_congr m c (r := Pipeline.arrRef spec0 4) (r' := main_v57) rfl)) (ix2 0 q)).trans
    (bias_found_apply m c q)

/-- What the kernel's program returns, as a function of the launch memory. -/
def kernelOut (c : Dev nD) : Vec Ideal S50000x64 .f32 :=
  denseOut (m ((c : Thread nD τ).loc main_arg0))
    (Cert.ReferenceIdeal.Read.val_main_v43 (F := Ideal) (m ((c : Thread nD τ).loc main_arg0)) (m ((c : Thread nD τ).loc main_arg1)) (m ((c : Thread nD τ).loc main_arg2)))
    (Cert.ReferenceIdeal.Read.val_main_v63 (F := Ideal) (m ((c : Thread nD τ).loc main_arg0)) (m ((c : Thread nD τ).loc main_arg1)) (m ((c : Thread nD τ).loc main_arg2)))
    (m ((c : Thread nD τ).loc main_arg3)) (m ((c : Thread nD τ).loc main_arg4))

/-- The output array after the run. -/
theorem final_launch (c : Dev nD) : (dats m 0 c).arrAt 5 cfg0.N = kernelOut m c := by
  rw [final_eq m c (m ((c : Thread nD τ).loc main_arg4)) (fun q => found4_apply m c q)]
  unfold kernelOut
  rw [found0_eq, found1_eq, found2_eq, found3_eq]

/-- Every weakly fair execution of the kernel's program ends with its result at `kernelOut`, the arguments kept. -/
theorem kernel_run : θ_run defs (onTc (τ := τ) (main (F := Ideal))) ⟨m, fun _ => 0, ρ⟩ fun r => ∀ c : Dev nD,
      r.2.mem ((c : Thread nD τ).loc main_v58) = kernelOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_launch m c), (h c).2⟩)
    (Cert.KernelIdeal.Value.run_blocks m ρ)

end Cert.ChebDense

end
-- ==== Proof.RefValue.lean ====
/-
  The reference's result is the dense Chebyshev projection of its own three terms.

  The reference computes T1 = L̂·x and T2 = 2·L̂·T1 − x by gathers and scatter-adds over the edge list, and then
  relu(((x·W[0] + T1·W[1]) + T2·W[2]) + b).  Here the three terms are left as they are — whatever the sparse part
  produces — and only the dense part is opened: each product is a sum over the 64 input channels, the slice of the
  stacked weights followed by the reshape to 64 × 64 reads W[j][k,c] at (j, k, c), the bias is spread over the rows,
  and relu is the maximum with zero.
-/
import proofs.«139565_j26611617366463_1_alg».proof.Proof.Gen.ReferenceIdeal.Read
import proofs.«139565_j26611617366463_1_alg».proof.Proof.DenseSpec

noncomputable section

namespace Cert.ChebDense

open Idealize.ShloMosaic Idealize.ShloMosaic.ValueIdx Cert.ReferenceIdeal Cert.ReferenceIdeal.Read

/-- A left operand's element (r, k) of each of the three products. -/
theorem lhs0 (i : S50000x64.Idx) (k : Fin 64) : lidx_main_v30 i k = ix2 (n0 := 50000) (i 0) k :=
  funext fun a => Fin.ext (by match a with | ⟨0, _⟩ => rfl | ⟨1, _⟩ => rfl)
theorem lhs1 (i : S50000x64.Idx) (k : Fin 64) : lidx_main_v46 i k = ix2 (n0 := 50000) (i 0) k :=
  funext fun a => Fin.ext (by match a with | ⟨0, _⟩ => rfl | ⟨1, _⟩ => rfl)
theorem lhs2 (i : S50000x64.Idx) (k : Fin 64) : lidx_main_v66 i k = ix2 (n0 := 50000) (i 0) k :=
  funext fun a => Fin.ext (by match a with | ⟨0, _⟩ => rfl | ⟨1, _⟩ => rfl)

/-- Slab j of the stacked weights, re-laid as a matrix, at (k, c): the stacked array at (j, k, c). -/
theorem weights0 (W : (⟨S3x64x64, .f32⟩ : BufTy).Contents (Elt Ideal)) (i : S50000x64.Idx) (k : Fin 64) :
    val_main_v29 (F := Ideal) W (ridx_main_v30 i k) = W (ix3 (n0 := 3) (n1 := 64) 0 k (i 1)) := by
  rw [val_main_v29_apply, val_main_v28_apply]
  refine congrArg W (funext fun a => Fin.ext ?_)
  have hk : k.val < 64 := k.isLt
  have hc : (i 1).val < 64 := (i 1).isLt
  match a with
  | ⟨0, _⟩ => rfl
  | ⟨1, _⟩ => show (k.val * 64 + (i 1).val) / 64 % 64 = k.val; omega
  | ⟨2, _⟩ => show (k.val * 64 + (i 1).val) % 64 = (i 1).val; omega
theorem weights1 (W : (⟨S3x64x64, .f32⟩ : BufTy).Contents (Elt Ideal)) (i : S50000x64.Idx) (k : Fin 64) :
    val_main_v45 (F := Ideal) W (ridx_main_v46 i k) = W (ix3 (n0 := 3) (n1 := 64) 1 k (i 1)) := by
  rw [val_main_v45_apply, val_main_v44_apply]
  refine congrArg W (funext fun a => Fin.ext ?_)
  have hk : k.val < 64 := k.isLt
  have hc : (i 1).val < 64 := (i 1).isLt
  match a with
  | ⟨0, _⟩ => rfl
  | ⟨1, _⟩ => show (k.val * 64 + (i 1).val) / 64 % 64 = k.val; omega
  | ⟨2, _⟩ => show (k.val * 64 + (i 1).val) % 64 = (i 1).val; omega
theorem weights2 (W : (⟨S3x64x64, .f32⟩ : BufTy).Contents (Elt Ideal)) (i : S50000x64.Idx) (k : Fin 64) :
    val_main_v65 (F := Ideal) W (ridx_main_v66 i k) = W (ix3 (n0 := 3) (n1 := 64) 2 k (i 1)) := by
  rw [val_main_v65_apply, val_main_v64_apply]
  refine congrArg W (funext fun a => Fin.ext ?_)
  have hk : k.val < 64 := k.isLt
  have hc : (i 1).val < 64 := (i 1).isLt
  match a with
  | ⟨0, _⟩ => rfl
  | ⟨1, _⟩ => show (k.val * 64 + (i 1).val) / 64 % 64 = k.val; omega
  | ⟨2, _⟩ => show (k.val * 64 + (i 1).val) % 64 = (i 1).val; omega

/-- The bias spread over the rows, at (r, c): b[c]. -/
theorem biasRows (b : (⟨S64, .f32⟩ : BufTy).Contents (Elt Ideal)) (i : S50000x64.Idx) :
    val_main_v69 (F := Ideal) b i = b (ix1 (n := 64) (i 1)) := by
  rw [val_main_v69_apply, val_main_v68_apply]
  exact congrArg b (funext fun a => Fin.ext (by match a with | ⟨0, _⟩ => rfl))

/-- relu's zero, spread over the array. -/
theorem reluZero (i : S50000x64.Idx) : val_main_call1_v0 (F := Ideal) i = 0 := by
  rw [val_main_call1_v0_apply, val_main_call1_cst_apply]
  exact Ideal.ofBits_zero_f32

/-- THE REFERENCE'S RESULT as the dense projection of its terms T0 = x, T1 and T2 (the stages the sparse part writes). -/
theorem reference_eq (x : (⟨S50000x64, .f32⟩ : BufTy).Contents (Elt Ideal)) (e : (⟨S2x800000, .i32⟩ : BufTy).Contents (Elt Ideal))
    (ew : (⟨S800000, .f32⟩ : BufTy).Contents (Elt Ideal)) (W : (⟨S3x64x64, .f32⟩ : BufTy).Contents (Elt Ideal))
    (b : (⟨S64, .f32⟩ : BufTy).Contents (Elt Ideal)) :
    val_main_v71 (F := Ideal) x e ew W b
      = denseOut x (val_main_v43 (F := Ideal) x e ew) (val_main_v63 (F := Ideal) x e ew) W b := by
  funext i
  rw [val_main_v71_apply, val_main_v70_apply, val_main_v67_apply, val_main_v47_apply, val_main_v30_apply,
    val_main_v46_apply, val_main_v66_apply, biasRows, reluZero]
  simp only [lhs0, lhs1, lhs2, weights0, weights1, weights2]
  rfl

end Cert.ChebDense

end
-- ==== Proof.lean ====
/-
  ChebConv with K = 3 followed by ReLU: the kernel's program against the jnp reference, over the extended reals.

  Both programs first compute, on the host and by the same operations in the same order, the normalised Laplacian's
  edge weights w = −dis[row]·weight·dis[col] (dis the inverse square root of the weighted degree where it is
  positive, else 0) and the two propagated terms T1 = L̂·x and T2 = 2·L̂·T1 − x, each propagation a gather of rows
  followed by a scatter-add over the edge list.  Then the reference forms relu(((x·W[0] + T1·W[1]) + T2·W[2]) + b)
  with three host matrix products, while the kernel's program hands x, T1, T2, W and b to a Pallas kernel that, for
  each block of 5000 rows, casts the operands to bf16 (the identity on the extended reals), multiplies each block by
  its 64 × 64 matrix into a zero accumulator, adds the three products in the same left-to-right order, adds the bias
  and clamps at zero.

  The proof: (1) the arrays the kernel's region finds for T1 and T2 are the reference's own stages for them, as
  terms — the sparse part is never opened (Proof/HostPrefix.lean); (2) the body's stored value at an element is the
  sum over the 64 channels of the three products, plus bias, clamped (Proof/DensePayload.lean); (3) block t of the
  output is rows 5000·t … of the dense projection of the whole arrays, and the ten blocks tile the output
  (Proof/KernelBlocks.lean, Proof/KernelRun.lean); (4) the reference's result is the same dense projection
  (Proof/RefValue.lean).  No step moves a factor across a sum, so finiteness of the inputs is never used.
  The ideal pass rewrote nothing, so `preserves` is `True`.
-/
import proofs.«139565_j26611617366463_1_alg».proof.Defs
import proofs.«139565_j26611617366463_1_alg».proof.Proof.Gen.Kernel
import proofs.«139565_j26611617366463_1_alg».proof.Proof.Gen.Kernel.Skeleton
import proofs.«139565_j26611617366463_1_alg».proof.Proof.Gen.Kernel.Launch
import proofs.«139565_j26611617366463_1_alg».proof.Proof.Gen.Kernel.Points
import proofs.«139565_j26611617366463_1_alg».proof.Proof.Gen.Kernel.Frame
import proofs.«139565_j26611617366463_1_alg».proof.Proof.Gen.KernelIdeal
import proofs.«139565_j26611617366463_1_alg».proof.Proof.Gen.KernelIdeal.Skeleton
import proofs.«139565_j26611617366463_1_alg».proof.Proof.Gen.KernelIdeal.Launch
import proofs.«139565_j26611617366463_1_alg».proof.Proof.Gen.KernelIdeal.Points
import proofs.«139565_j26611617366463_1_alg».proof.Proof.Gen.KernelIdeal.Frame
import proofs.«139565_j26611617366463_1_alg».proof.Proof.Gen.ReferenceIdeal
import proofs.«139565_j26611617366463_1_alg».proof.Proof.Gen.Pre_finite_inputs
import proofs.«139565_j26611617366463_1_alg».proof.Proof.Gen.KernelIdeal.Value
import proofs.«139565_j26611617366463_1_alg».proof.Proof.Gen.ReferenceIdeal.Run
import proofs.«139565_j26611617366463_1_alg».proof.Proof.Gen.ReferenceIdeal.Read
import proofs.«139565_j26611617366463_1_alg».proof.Proof.KernelRun
import proofs.«139565_j26611617366463_1_alg».proof.Proof.RefValue
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel :=
  fun m ρ _ => Cert.Kernel.Gen.frame m ρ

/-- So does its reading over the extended reals. -/
theorem frame_kernelIdeal : Cert.frame_KernelIdeal :=
  fun m ρ _ => Cert.KernelIdeal.Gen.frame m ρ

/-- The reference is a host program: its run, with the result dropped. -/
theorem frame_reference : Cert.frame_ReferenceIdeal :=
  fun m ρ _ => (θ_run Cert.ReferenceIdeal.defs _ _).mono (fun _ h c => (h c).2)
    (Cert.ReferenceIdeal.Value.run (F := Ideal) m ρ)

/-- From memories that agree on the five arguments both programs end with the dense Chebyshev projection of x, T1,
    T2, W and b, where T1 and T2 are the reference's stages of the shared sparse part. -/
theorem algebraic : Cert.algebraic_KernelIdeal_ReferenceIdeal := by
  intro m ρ m' ρ' _ hagree
  refine ⟨fun c => Cert.ChebDense.kernelOut m c, Cert.ChebDense.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v71_eq, Cert.ChebDense.reference_eq,
    (hagree c).1, (hagree c).2.1, (hagree c).2.2.1, (hagree c).2.2.2.1, (hagree c).2.2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
